-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512x3 : Shape := ⟨4, ![32, 512, 512, 3]⟩
abbrev S_ : Shape := ⟨0, ![]⟩

class Facts : Prop where
  bcast_S_S32x512x512x3 : S_.BroadcastsInDim S32x512x512x3 (![] : Fin 0 → Fin S32x512x512x3.rank)
  reducesTo_S32x512x512x3_S_d0_1_2_3 : S32x512x512x3.ReducesTo [0, 1, 2, 3] S_
  h_S_ : 0 < S_.numel

variable [Facts]

def fn {F : FTy → Type} [FloatOps F] (main_arg0 : FVec F S32x512x512x3 .f32) : IVec S_ 1 :=
  let main_v0 : FVec F S32x512x512x3 .f32 := Host.absf main_arg0
  let main_cst : FVec F S_ .f32 := constant S_ .f32 0x7F800000#32
  let main_v1 : FVec F S32x512x512x3 .f32 := broadcastInDim S32x512x512x3 ![] bcast_S_S32x512x512x3 main_cst
  let main_v2 : IVec S32x512x512x3 1 := cmpf .olt main_v0 main_v1
  let main_c : IVec S_ 1 := constantI S_ 1 1#1
  let main_v3 : IVec S_ 1 := (fun x v => Host.reduce IntOp.andi x v reducesTo_S32x512x512x3_S_d0_1_2_3 h_S_) main_v2 main_c
  main_v3
-- ==== Kernel.lean ====
abbrev S32x512x512x3 : Shape := ⟨4, ![32, 512, 512, 3]⟩
abbrev S32x3x512x512 : Shape := ⟨4, ![32, 3, 512, 512]⟩
abbrev S_ : Shape := ⟨0, ![]⟩
abbrev S32x3x526x526 : Shape := ⟨4, ![32, 3, 526, 526]⟩
abbrev S1x1x526x526 : Shape := ⟨4, ![1, 1, 526, 526]⟩
abbrev S1x1x512x512 : Shape := ⟨4, ![1, 1, 512, 512]⟩
abbrev S1x1x512x526 : Shape := ⟨4, ![1, 1, 512, 526]⟩
abbrev S512x526 : Shape := ⟨2, ![512, 526]⟩
abbrev S512x512 : Shape := ⟨2, ![512, 512]⟩

abbrev nBuf : Space → Nat
  | .hbm => 7
  | .vmem => 4
  | .smem => 0
  | _ => 0

abbrev bufTy : (tb : Table) → Fin (tcTables nBuf tb) → BufTy
  | .hbm, ⟨0, _⟩ => ⟨S32x512x512x3, .f32⟩
  | .hbm, ⟨1, _⟩ => ⟨S32x3x512x512, .f32⟩
  | .hbm, ⟨2, _⟩ => ⟨S_, .f32⟩
  | .hbm, ⟨3, _⟩ => ⟨S_, .f32⟩
  | .hbm, ⟨4, _⟩ => ⟨S32x3x526x526, .f32⟩
  | .hbm, ⟨5, _⟩ => ⟨S32x3x512x512, .f32⟩
  | .hbm, ⟨6, _⟩ => ⟨S32x512x512x3, .f32⟩
  | .local _ .vmem, ⟨0, _⟩ => ⟨S1x1x526x526, .f32⟩
  | .local _ .vmem, ⟨1, _⟩ => ⟨S1x1x526x526, .f32⟩
  | .local _ .vmem, ⟨2, _⟩ => ⟨S1x1x512x512, .f32⟩
  | .local _ .vmem, ⟨3, _⟩ => ⟨S1x1x512x512, .f32⟩
  | _, _ => ⟨S32x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 3], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x526x526 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  transposes_S32x512x512x3_S32x3x512x512_0_3_1_2 : S32x512x512x3.Transposes [0, 3, 1, 2] S32x3x512x512
  pads_S32x3x512x512_S32x3x526x526_000_000_770_770 : S32x3x512x512.Pads (![0, 0, 7, 7] : Fin 4 → Nat) ![0, 0, 7, 7] ![0, 0, 0, 0] S32x3x526x526
  h_S_ : 0 < S_.numel
  inb_S1x1x526x526_S1x1x512x526_0_0_0_0 : ∀ a, (![0, 0, 0, 0] : Fin 4 → Nat) a + S1x1x512x526.size a ≤ S1x1x526x526.size a
  h_S1x1x512x526 : 0 < S1x1x512x526.numel
  shapeCasts_S1x1x512x526_S512x526 : S1x1x512x526.ShapeCasts S512x526
  inb_S1x1x526x526_S1x1x512x526_0_0_1_0 : ∀ a, (![0, 0, 1, 0] : Fin 4 → Nat) a + S1x1x512x526.size a ≤ S1x1x526x526.size a
  inb_S1x1x526x526_S1x1x512x526_0_0_2_0 : ∀ a, (![0, 0, 2, 0] : Fin 4 → Nat) a + S1x1x512x526.size a ≤ S1x1x526x526.size a
  inb_S1x1x526x526_S1x1x512x526_0_0_3_0 : ∀ a, (![0, 0, 3, 0] : Fin 4 → Nat) a + S1x1x512x526.size a ≤ S1x1x526x526.size a
  inb_S1x1x526x526_S1x1x512x526_0_0_4_0 : ∀ a, (![0, 0, 4, 0] : Fin 4 → Nat) a + S1x1x512x526.size a ≤ S1x1x526x526.size a
  inb_S1x1x526x526_S1x1x512x526_0_0_5_0 : ∀ a, (![0, 0, 5, 0] : Fin 4 → Nat) a + S1x1x512x526.size a ≤ S1x1x526x526.size a
  inb_S1x1x526x526_S1x1x512x526_0_0_6_0 : ∀ a, (![0, 0, 6, 0] : Fin 4 → Nat) a + S1x1x512x526.size a ≤ S1x1x526x526.size a
  inb_S1x1x526x526_S1x1x512x526_0_0_7_0 : ∀ a, (![0, 0, 7, 0] : Fin 4 → Nat) a + S1x1x512x526.size a ≤ S1x1x526x526.size a
  inb_S1x1x526x526_S1x1x512x526_0_0_8_0 : ∀ a, (![0, 0, 8, 0] : Fin 4 → Nat) a + S1x1x512x526.size a ≤ S1x1x526x526.size a
  inb_S1x1x526x526_S1x1x512x526_0_0_9_0 : ∀ a, (![0, 0, 9, 0] : Fin 4 → Nat) a + S1x1x512x526.size a ≤ S1x1x526x526.size a
  inb_S1x1x526x526_S1x1x512x526_0_0_10_0 : ∀ a, (![0, 0, 10, 0] : Fin 4 → Nat) a + S1x1x512x526.size a ≤ S1x1x526x526.size a
  inb_S1x1x526x526_S1x1x512x526_0_0_11_0 : ∀ a, (![0, 0, 11, 0] : Fin 4 → Nat) a + S1x1x512x526.size a ≤ S1x1x526x526.size a
  inb_S1x1x526x526_S1x1x512x526_0_0_12_0 : ∀ a, (![0, 0, 12, 0] : Fin 4 → Nat) a + S1x1x512x526.size a ≤ S1x1x526x526.size a
  inb_S1x1x526x526_S1x1x512x526_0_0_13_0 : ∀ a, (![0, 0, 13, 0] : Fin 4 → Nat) a + S1x1x512x526.size a ≤ S1x1x526x526.size a
  inb_S1x1x526x526_S1x1x512x526_0_0_14_0 : ∀ a, (![0, 0, 14, 0] : Fin 4 → Nat) a + S1x1x512x526.size a ≤ S1x1x526x526.size a
  slices_S512x526_o0_0_S512x512 : S512x526.Slices ![0, 0] S512x512
  slices_S512x526_o0_1_S512x512 : S512x526.Slices ![0, 1] S512x512
  slices_S512x526_o0_2_S512x512 : S512x526.Slices ![0, 2] S512x512
  slices_S512x526_o0_3_S512x512 : S512x526.Slices ![0, 3] S512x512
  slices_S512x526_o0_4_S512x512 : S512x526.Slices ![0, 4] S512x512
  slices_S512x526_o0_5_S512x512 : S512x526.Slices ![0, 5] S512x512
  slices_S512x526_o0_6_S512x512 : S512x526.Slices ![0, 6] S512x512
  slices_S512x526_o0_7_S512x512 : S512x526.Slices ![0, 7] S512x512
  slices_S512x526_o0_8_S512x512 : S512x526.Slices ![0, 8] S512x512
  slices_S512x526_o0_9_S512x512 : S512x526.Slices ![0, 9] S512x512
  slices_S512x526_o0_10_S512x512 : S512x526.Slices ![0, 10] S512x512
  slices_S512x526_o0_11_S512x512 : S512x526.Slices ![0, 11] S512x512
  slices_S512x526_o0_12_S512x512 : S512x526.Slices ![0, 12] S512x512
  slices_S512x526_o0_13_S512x512 : S512x526.Slices ![0, 13] S512x512
  slices_S512x526_o0_14_S512x512 : S512x526.Slices ![0, 14] S512x512
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  shapeCasts_S512x512_S1x1x512x512 : S512x512.ShapeCasts S1x1x512x512
  transposes_S32x3x512x512_S32x512x512x3_0_2_3_1 : S32x3x512x512.Transposes [0, 2, 3, 1] S32x512x512x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x526x526.size a ≤ S32x3x526x526.size a
  hwx0_0 : ∀ i : grid0.Coords, EltTy.bits .f32 = 32 ∨ (Rect.block (s := S32x3x526x526) S1x1x526x526.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S32x3x512x512.size a
  hwx0_1 : ∀ i : grid0.Coords, EltTy.bits .f32 = 32 ∨ (Rect.block (s := S32x3x512x512) S1x1x512x512.size (cc0_transform_1 i) (hinb0_1 i)).WholeWords (EltTy.packing .f32)

variable [Facts₀]

abbrev win0_0 : Pipeline.Window sig grid0 :=
  Pipeline.Window.ofSpec (Memref.whole main_v1) S1x1x526x526.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x512x512x3 : Shape := ⟨4, ![32, 512, 512, 3]⟩
abbrev S_ : Shape := ⟨0, ![]⟩
abbrev S32x526x526x3 : Shape := ⟨4, ![32, 526, 526, 3]⟩

abbrev nBuf : Space → Nat
  | .hbm => 6
  | .vmem => 0
  | .smem => 0
  | _ => 0

abbrev bufTy : (tb : Table) → Fin (tcTables nBuf tb) → BufTy
  | .hbm, ⟨0, _⟩ => ⟨S32x512x512x3, .f32⟩
  | .hbm, ⟨1, _⟩ => ⟨S_, .f32⟩
  | .hbm, ⟨2, _⟩ => ⟨S_, .f32⟩
  | .hbm, ⟨3, _⟩ => ⟨S32x526x526x3, .f32⟩
  | .hbm, ⟨4, _⟩ => ⟨S_, .f32⟩
  | .hbm, ⟨5, _⟩ => ⟨S32x512x512x3, .f32⟩
  | _, _ => ⟨S32x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_call0_v0 : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  pads_S32x512x512x3_S32x526x526x3_000_770_770_000 : S32x512x512x3.Pads (![0, 7, 7, 0] : Fin 4 → Nat) ![0, 7, 7, 0] ![0, 0, 0, 0] S32x526x526x3
  h_S_ : 0 < S_.numel
  reduceWindows_S32x526x526x3_S32x512x512x3_w1s1p0_0_w15s1p0_0_w15s1p0_0_w1s1p0_0 : S32x526x526x3.ReduceWindows (![1, 15, 15, 1] : Fin 4 → Nat) ![1, 1, 1, 1] ![0, 0, 0, 0] ![0, 0, 0, 0] S32x512x512x3

variable [Facts₀]

class Facts : Prop extends Facts₀ where

variable [Facts]
-- ==== Proof.MinFold.lean ====
/-
  The order facts behind a sliding-window minimum on the extended reals.

  A left fold of `min` over a list, started anywhere, is the greatest lower bound of the start and the
  listed values: it is below the start, below every listed value, and above every common lower bound. So a
  fold started at `⊤` over ALL indices of a finite type is the infimum of the family — whatever order the
  list visits them in. The same three facts for an explicit chain of fifteen minimums (a window of fifteen
  written out term by term) make that chain the infimum of its fifteen terms.
-/
import Idealize.ShloMosaic.PureOps.Ideal
import Mathlib.Data.Finset.Lattice.Fold
import Mathlib.Data.List.FinRange

noncomputable section

namespace Cert.MinFold

variable {ι : Type}

/-- A fold of minimums is below its starting value. -/
theorem foldl_min_le_init (g : ι → EReal) : ∀ (l : List ι) (a : EReal), l.foldl (fun r n => min r (g n)) a ≤ a
  | [], _ => le_rfl
  | _ :: l, _ => (foldl_min_le_init g l _).trans (min_le_left _ _)

/-- A fold of minimums is below every value it folds in. -/
theorem foldl_min_le_of_mem (g : ι → EReal) : ∀ (l : List ι) (a : EReal) (n : ι), n ∈ l →
    l.foldl (fun r n => min r (g n)) a ≤ g n
  | [], _, _, h => absurd h (List.not_mem_nil)
  | x :: l, a, n, h => by
    rcases List.mem_cons.mp h with rfl | h
    · exact (foldl_min_le_init g l _).trans (min_le_right _ _)
    · exact foldl_min_le_of_mem g l _ n h

/-- Every common lower bound of the start and of the folded values is below the fold. -/
theorem le_foldl_min (g : ι → EReal) (b : EReal) : ∀ (l : List ι) (a : EReal), b ≤ a → (∀ n ∈ l, b ≤ g n) →
    b ≤ l.foldl (fun r n => min r (g n)) a
  | [], _, ha, _ => ha
  | x :: l, _, ha, h =>
    le_foldl_min g b l _ (le_min ha (h x (List.mem_cons_self ..))) (fun n hn => h n (List.mem_cons_of_mem _ hn))

/-- The fold of minimums from `⊤` over every index of `Fin N` is the infimum of the family. -/
theorem foldl_min_finRange (N : ℕ) (g : Fin N → EReal) :
    (List.finRange N).foldl (fun r n => min r (g n)) ⊤ = Finset.univ.inf g :=
  le_antisymm (Finset.le_inf fun n _ => foldl_min_le_of_mem g _ _ n (List.mem_finRange n))
    (le_foldl_min g _ _ _ le_top fun n _ => Finset.inf_le (Finset.mem_univ n))

/-- Fifteen terms under a left-nested chain of minimums, as the programs write a window of fifteen out. -/
def chain15 (f : Fin 15 → EReal) : EReal :=
  min (min (min (min (min (min (min (min (min (min (min (min (min (min (f 0) (f 1)) (f 2)) (f 3)) (f 4)) (f 5)) (f 6)) (f 7))
    (f 8)) (f 9)) (f 10)) (f 11)) (f 12)) (f 13)) (f 14)

/-- The chain is the infimum of its fifteen terms. -/
theorem chain15_eq_inf (f : Fin 15 → EReal) : chain15 f = Finset.univ.inf f := by
  apply le_antisymm
  · refine Finset.le_inf fun d _ => ?_
    exact match d with
    | ⟨0, _⟩ => by show chain15 f ≤ f 0; unfold chain15; simp only [min_le_iff, le_refl, true_or, or_true]
    | ⟨1, _⟩ => by show chain15 f ≤ f 1; unfold chain15; simp only [min_le_iff, le_refl, true_or, or_true]
    | ⟨2, _⟩ => by show chain15 f ≤ f 2; unfold chain15; simp only [min_le_iff, le_refl, true_or, or_true]
    | ⟨3, _⟩ => by show chain15 f ≤ f 3; unfold chain15; simp only [min_le_iff, le_refl, true_or, or_true]
    | ⟨4, _⟩ => by show chain15 f ≤ f 4; unfold chain15; simp only [min_le_iff, le_refl, true_or, or_true]
    | ⟨5, _⟩ => by show chain15 f ≤ f 5; unfold chain15; simp only [min_le_iff, le_refl, true_or, or_true]
    | ⟨6, _⟩ => by show chain15 f ≤ f 6; unfold chain15; simp only [min_le_iff, le_refl, true_or, or_true]
    | ⟨7, _⟩ => by show chain15 f ≤ f 7; unfold chain15; simp only [min_le_iff, le_refl, true_or, or_true]
    | ⟨8, _⟩ => by show chain15 f ≤ f 8; unfold chain15; simp only [min_le_iff, le_refl, true_or, or_true]
    | ⟨9, _⟩ => by show chain15 f ≤ f 9; unfold chain15; simp only [min_le_iff, le_refl, true_or, or_true]
    | ⟨10, _⟩ => by show chain15 f ≤ f 10; unfold chain15; simp only [min_le_iff, le_refl, true_or, or_true]
    | ⟨11, _⟩ => by show chain15 f ≤ f 11; unfold chain15; simp only [min_le_iff, le_refl, true_or, or_true]
    | ⟨12, _⟩ => by show chain15 f ≤ f 12; unfold chain15; simp only [min_le_iff, le_refl, true_or, or_true]
    | ⟨13, _⟩ => by show chain15 f ≤ f 13; unfold chain15; simp only [min_le_iff, le_refl, true_or, or_true]
    | ⟨14, _⟩ => by show chain15 f ≤ f 14; unfold chain15; simp only [min_le_iff, le_refl, true_or, or_true]
  · unfold chain15
    simp only [le_min_iff]
    refine ⟨⟨⟨⟨⟨⟨⟨⟨⟨⟨⟨⟨⟨⟨?_, ?_⟩, ?_⟩, ?_⟩, ?_⟩, ?_⟩, ?_⟩, ?_⟩, ?_⟩, ?_⟩, ?_⟩, ?_⟩, ?_⟩, ?_⟩, ?_⟩ <;>
      exact Finset.inf_le (Finset.mem_univ _)

end Cert.MinFold

end
-- ==== Proof.Body.lean ====
/-
  What the kernel body leaves in its output block, read at an index.

  The body reads its [1, 1, 526, 526] input block fifteen times, 512 rows from row offsets 0 … 14, and takes the
  running minimum: a [512, 526] array whose entry (r, q) is the minimum of the block's entries (r + dh, q),
  dh < 15. It then cuts that array fifteen times, 512 columns from column offsets 0 … 14, and takes the running
  minimum again: entry (r, q) of the [512, 512] result is the minimum over dw < 15 of the first array's entries
  (r, q + dw). At the extended reals every `minimumf` is `min`, so the stored block at (0, 0, r, q) is the chain over dw of
  the chains over dh of the input block's entries (0, 0, r + dh, q + dw).
-/
import proofs.«136789_j9371618640650_1_alg».proof.Proof.Gen.KernelIdeal.Frame
import Idealize.ShloMosaic.Lib.Pipeline.Value
import Idealize.ShloMosaic.Lib.ValueIdx
import proofs.«136789_j9371618640650_1_alg».proof.Proof.MinFold

noncomputable section

namespace Cert.KernelIdeal.Body

open Cert.KernelIdeal Cert.KernelIdeal.Gen Idealize.ShloMosaic Idealize.ShloMosaic.ValueIdx Cert.MinFold

/-- 512 rows of the block from row offset `d`, viewed [512, 526]: entry (r, q) is the block's (0, 0, r + d, q). -/
theorem rowLoad_apply (x0 : Vec Ideal S1x1x526x526 .f32) (d : ℕ)
    (inb : ∀ a, (![0, 0, d, 0] : Fin 4 → ℕ) a + S1x1x512x526.size a ≤ S1x1x526x526.size a)
    (hc : S1x1x512x526.ShapeCasts S512x526) (r : Fin 512) (q : Fin 526) :
    shapeCast S512x526 (View.ld x0 (Rect.unit (s := S1x1x526x526) ![0, 0, d, 0] S1x1x512x526.size inb) : Vec Ideal S1x1x512x526 .f32) hc (ix2 r q)
      = x0 (ix4 (0 : Fin 1) (0 : Fin 1) (⟨r.val + d, by have h2 := inb ⟨2, by decide⟩; replace h2 : d + 512 ≤ 526 := h2; have := r.isLt; omega⟩ : Fin 526) q) := by
  have hr := r.isLt; have hq := q.isLt
  refine (shapeCast_apply _ hc (ix2 r q) (ix4 (0 : Fin 1) (0 : Fin 1) r q) ?_).trans ?_
  · rw [Shape.rowMajor_val_four, Shape.rowMajor_val_two]
    show ((0 * 1 + 0) * 512 + r.val) * 526 + q.val = r.val * 526 + q.val
    omega
  · refine congrArg x0 (funext fun a => Fin.ext ?_)
    match a with
    | ⟨0, _⟩ => show 0 + 1 * 0 = 0; rfl
    | ⟨1, _⟩ => show 0 + 1 * 0 = 0; rfl
    | ⟨2, _⟩ => show d + 1 * r.val = r.val + d; omega
    | ⟨3, _⟩ => show 0 + 1 * q.val = q.val; omega

/-- 512 columns of a [512, 526] array from column offset `d`: entry (r, q) is the array's (r, q + d). -/
theorem colSlice_apply (R : S512x526.Idx → EReal) (d : ℕ) (hs : S512x526.Slices ![0, d] S512x512) (r q : Fin 512) :
    extractStridedSlice S512x512 ![0, d] R hs (ix2 r q)
      = R (ix2 r (⟨q.val + d, by have h1 := hs.2 ⟨1, by decide⟩; replace h1 : d + 512 ≤ 526 := h1; have := q.isLt; omega⟩ : Fin 526)) :=
  extractStridedSlice_apply ![0, d] R hs (ix2 r q) _ (fun a =>
    match a with
    | ⟨0, _⟩ => by show r.val = 0 + r.val; omega
    | ⟨1, _⟩ => by show q.val + d = d + q.val; omega)

/-- The running minimum over the fifteen row-shifted loads, at (r, q): the chain over dh of the block's (0, 0, r + dh, q). -/
theorem rowPart (x0 : Vec Ideal S1x1x526x526 .f32) (r : Fin 512) (q : Fin 526) :
    k0_pay3 (k0_pay2 (View.ld x0 r0_0) (View.ld x0 r0_1) (View.ld x0 r0_2) (View.ld x0 r0_3) (View.ld x0 r0_4) (View.ld x0 r0_5) (View.ld x0 r0_6) (View.ld x0 r0_7)) (View.ld x0 r0_8) (View.ld x0 r0_9) (View.ld x0 r0_10) (View.ld x0 r0_11) (View.ld x0 r0_12) (View.ld x0 r0_13) (View.ld x0 r0_14) (ix2 r q)
      = chain15 fun dh => x0 (ix4 (0 : Fin 1) (0 : Fin 1) (⟨r.val + dh.val, by have := r.isLt; have := dh.isLt; omega⟩ : Fin 526) q) := by
  unfold k0_pay3 k0_pay2
  dsimp only
  simp only [minimumf_apply]
  rw [rowLoad_apply x0 0, rowLoad_apply x0 1, rowLoad_apply x0 2, rowLoad_apply x0 3, rowLoad_apply x0 4, rowLoad_apply x0 5, rowLoad_apply x0 6, rowLoad_apply x0 7, rowLoad_apply x0 8, rowLoad_apply x0 9, rowLoad_apply x0 10, rowLoad_apply x0 11, rowLoad_apply x0 12, rowLoad_apply x0 13, rowLoad_apply x0 14]
  rfl

/-- The running minimum over the fifteen column slices of `R`, stored as a [1, 1, 512, 512] block, at (0, 0, r, q): the chain
    over dw of `R`'s (r, q + dw). -/
theorem colPart (v22 : FVec Ideal S512x526 .f32) (l8 l9 l10 l11 l12 l13 l14 : Vec Ideal S1x1x512x526 .f32) (r q : Fin 512) :
    k0_pay1 (k0_pay3 v22 l8 l9 l10 l11 l12 l13 l14) (k0_pay4 v22 l8 l9 l10 l11 l12 l13 l14) (k0_pay5 v22 l8 l9 l10 l11 l12 l13 l14) (ix4 (0 : Fin 1) (0 : Fin 1) r q)
      = chain15 fun dw => k0_pay3 v22 l8 l9 l10 l11 l12 l13 l14 (ix2 r (⟨q.val + dw.val, by have := q.isLt; have := dw.isLt; omega⟩ : Fin 526)) := by
  have hr := r.isLt; have hq := q.isLt
  unfold k0_pay1 k0_pay4 k0_pay5
  dsimp only
  generalize k0_pay3 v22 l8 l9 l10 l11 l12 l13 l14 = R
  refine (shapeCast_apply _ _ (ix4 (0 : Fin 1) (0 : Fin 1) r q) (ix2 r q) ?_).trans ?_
  · rw [Shape.rowMajor_val_four, Shape.rowMajor_val_two]
    show r.val * 512 + q.val = ((0 * 1 + 0) * 512 + r.val) * 512 + q.val
    omega
  · simp only [minimumf_apply]
    rw [colSlice_apply R 0, colSlice_apply R 1, colSlice_apply R 2, colSlice_apply R 3, colSlice_apply R 4, colSlice_apply R 5, colSlice_apply R 6, colSlice_apply R 7, colSlice_apply R 8, colSlice_apply R 9, colSlice_apply R 10, colSlice_apply R 11, colSlice_apply R 12, colSlice_apply R 13, colSlice_apply R 14]
    rfl

theorem hz4 : (![0, 0, 0, 0] : Fin 4 → ℕ) = fun _ => 0 := funext fun a => by fin_cases a <;> rfl

/-- THE BODY'S RESULT at (0, 0, r, q): the chain over dw of the chains over dh of the input block's (0, 0, r + dh, q + dw). -/
theorem out_apply (x0 : Vec Ideal S1x1x526x526 .f32) (r q : Fin 512) :
    out0_1 x0 (ix4 (0 : Fin 1) (0 : Fin 1) r q)
      = chain15 fun dw => chain15 fun dh =>
          x0 (ix4 (0 : Fin 1) (0 : Fin 1) (⟨r.val + dh.val, by have := r.isLt; have := dh.isLt; omega⟩ : Fin 526)
            (⟨q.val + dw.val, by have := q.isLt; have := dw.isLt; omega⟩ : Fin 526)) := by
  unfold out0_1
  rw [View.canon_unit_zero hz4, colPart]
  exact congrArg chain15 (funext fun dw => rowPart x0 r _)

end Cert.KernelIdeal.Body

end
-- ==== Proof.RefWindow.lean ====
/-
  A 15 × 15 window minimum of a [32, 526, 526, 3] array, read at an index.

  The host's window reduction folds `min` from its initial value over the 225 positions of a [1, 15, 15, 1] window
  in row-major order. With `⊤` as initial value the fold is the infimum over the positions (the order facts of
  the fold), every position of the window at an output index (b, h, w, c) lies inside the array — the array is
  14 longer than the output on both windowed axes and nothing is padded here — and the position (0, dh, dw, 0)
  reads the array at (b, h + dh, w + dw, c). So the result at (b, h, w, c) is the infimum over (dh, dw) of the
  array's entries at (b, h + dh, w + dw, c).
-/
import Idealize.ShloMosaic.PureOps.Ideal
import Idealize.ShloMosaic.Lib.ValueIdx
import proofs.«136789_j9371618640650_1_alg».proof.Proof.MinFold

noncomputable section

namespace Cert.MinPool

open Idealize.ShloMosaic Idealize.ShloMosaic.ValueIdx Cert.MinFold

/-- The padded image, channels last. -/
abbrev SPad : Shape := ⟨4, ![32, 526, 526, 3]⟩
/-- The result, channels last. -/
abbrev SOut : Shape := ⟨4, ![32, 512, 512, 3]⟩
/-- The window's positions. -/
abbrev SWin : Shape := ⟨4, ![1, 15, 15, 1]⟩

/-- The padded image's index that offset `d = (dh, dw)` of the window at output index (b, h, w, c) reads. -/
abbrev tap (b : Fin 32) (h w : Fin 512) (c : Fin 3) (d : Fin 15 × Fin 15) : SPad.Idx :=
  ix4 b (⟨h.val + d.1.val, by have := h.isLt; have := d.1.isLt; omega⟩ : Fin 526)
    (⟨w.val + d.2.val, by have := w.isLt; have := d.2.isLt; omega⟩ : Fin 526) c

/-- The window minimum of the padded image: at (b, h, w, c) the infimum of its 225 taps. -/
def windowMin (x : SPad.Idx → EReal) : SOut.Idx → EReal :=
  fun i => Finset.univ.inf fun d : Fin 15 × Fin 15 => x (tap (i 0) (i 1) (i 2) (i 3) d)

theorem windowMin_apply (x : SPad.Idx → EReal) (b : Fin 32) (h w : Fin 512) (c : Fin 3) :
    windowMin x (ix4 b h w c) = Finset.univ.inf fun d : Fin 15 × Fin 15 => x (tap b h w c d) := rfl

/-- The host's [1, 15, 15, 1] window reduction by `min`, unit strides, no padding, from an initial value that is
    `⊤`, is the window minimum. -/
theorem reduceWindow_min_eq (x : SPad.Idx → EReal) (init : (⟨0, ![]⟩ : Shape).Idx → EReal)
    (hrw : SPad.ReduceWindows ![1, 15, 15, 1] ![1, 1, 1, 1] ![0, 0, 0, 0] ![0, 0, 0, 0] SOut)
    (hu : 0 < (⟨0, ![]⟩ : Shape).numel) (hinit : init (Shape.Idx.first hu) = ⊤) :
    Host.reduceWindow (fun a b : EReal => min a b) ![1, 15, 15, 1] ![1, 1, 1, 1] ![0, 0, 0, 0] ![0, 0, 0, 0] x init hrw hu
      = windowMin x := by
  funext i
  obtain ⟨b, h, w, c, rfl⟩ : ∃ (b : Fin 32) (h w : Fin 512) (c : Fin 3), i = ix4 b h w c := ⟨i 0, i 1, i 2, i 3, eq_ix4 i⟩
  rw [windowMin_apply]
  unfold Host.reduceWindow
  dsimp only
  rw [hinit]
  refine (foldl_min_finRange _ _).trans ?_
  have hb := b.isLt; have hh := h.isLt; have hw := w.isLt; have hc := c.isLt
  apply le_antisymm
  · -- below every tap: the tap (dh, dw) is the term of the position (0, dh, dw, 0)
    refine Finset.le_inf fun d _ => ?_
    have hd1 := d.1.isLt; have hd2 := d.2.isLt
    refine (Finset.inf_le (Finset.mem_univ (SWin.rowMajor (ix4 (0 : Fin 1) d.1 d.2 (0 : Fin 1))))).trans ?_
    simp only [Equiv.symm_apply_apply]
    split
    · refine le_of_eq (congrArg x (funext fun a => Fin.ext ?_))
      match a with
      | ⟨0, _⟩ => show b.val * 1 + 0 - 0 = b.val; omega
      | ⟨1, _⟩ => show h.val * 1 + d.1.val - 0 = h.val + d.1.val; omega
      | ⟨2, _⟩ => show w.val * 1 + d.2.val - 0 = w.val + d.2.val; omega
      | ⟨3, _⟩ => show c.val * 1 + 0 - 0 = c.val; omega
    · rename_i hnin
      refine absurd (fun a => ?_) hnin
      match a with
      | ⟨0, _⟩ => exact ⟨Nat.zero_le _, by show b.val * 1 + 0 - 0 < 32; omega⟩
      | ⟨1, _⟩ => exact ⟨Nat.zero_le _, by show h.val * 1 + d.1.val - 0 < 526; omega⟩
      | ⟨2, _⟩ => exact ⟨Nat.zero_le _, by show w.val * 1 + d.2.val - 0 < 526; omega⟩
      | ⟨3, _⟩ => exact ⟨Nat.zero_le _, by show c.val * 1 + 0 - 0 < 3; omega⟩
  · -- above the infimum of the taps: every position's term is a tap (or `⊤`)
    refine Finset.le_inf fun n _ => ?_
    split
    · have q0 : (SWin.rowMajor.symm n 0).val < 1 := (SWin.rowMajor.symm n 0).isLt
      have q1 : (SWin.rowMajor.symm n 1).val < 15 := (SWin.rowMajor.symm n 1).isLt
      have q2 : (SWin.rowMajor.symm n 2).val < 15 := (SWin.rowMajor.symm n 2).isLt
      have q3 : (SWin.rowMajor.symm n 3).val < 1 := (SWin.rowMajor.symm n 3).isLt
      refine (Finset.inf_le (Finset.mem_univ ((⟨(SWin.rowMajor.symm n 1).val, q1⟩ : Fin 15), (⟨(SWin.rowMajor.symm n 2).val, q2⟩ : Fin 15)))).trans_eq
        (congrArg x (funext fun a => Fin.ext ?_))
      match a with
      | ⟨0, _⟩ => show b.val = b.val * 1 + (SWin.rowMajor.symm n 0).val - 0; omega
      | ⟨1, _⟩ => show h.val + (SWin.rowMajor.symm n 1).val = h.val * 1 + (SWin.rowMajor.symm n 1).val - 0; omega
      | ⟨2, _⟩ => show w.val + (SWin.rowMajor.symm n 2).val = w.val * 1 + (SWin.rowMajor.symm n 2).val - 0; omega
      | ⟨3, _⟩ => show c.val = c.val * 1 + (SWin.rowMajor.symm n 3).val - 0; omega
    · exact le_top

/-- The window minimum as the kernel writes it: the chain over the fifteen column offsets of the chains over the
    fifteen row offsets. An infimum over pairs is the infimum over one coordinate of the infima over the other. -/
theorem windowMin_eq_chains (x : SPad.Idx → EReal) (b : Fin 32) (h w : Fin 512) (c : Fin 3) :
    windowMin x (ix4 b h w c) = chain15 fun dw => chain15 fun dh => x (tap b h w c (dh, dw)) := by
  rw [windowMin_apply]
  simp only [chain15_eq_inf]
  apply le_antisymm
  · exact Finset.le_inf fun dw _ => Finset.le_inf fun dh _ => Finset.inf_le (Finset.mem_univ (dh, dw))
  · exact Finset.le_inf fun d _ => (Finset.inf_le (Finset.mem_univ d.2)).trans (Finset.inf_le (Finset.mem_univ d.1))

end Cert.MinPool

end
-- ==== Proof.PadLayout.lean ====
/-
  The kernel's padded image is the reference's, with the channel axis moved.

  The kernel moves the channels of the [32, 512, 512, 3] image in front of the two image axes and then pads those
  two axes by 7 on each side; the reference pads the same two axes of the image as it is. Both read, at batch b,
  channel c and padded position (r, s), the image's entry (b, r − 7, s − 7, c) when 7 ≤ r, s < 519 and the padding
  value otherwise.
-/
import Idealize.ShloMosaic.Lib.KernelVsHost
import Idealize.ShloMosaic.Lib.Pipeline.Value
import Idealize.ShloMosaic.Lib.ValueIdx

noncomputable section

namespace Cert.MinPool

open Idealize.ShloMosaic Idealize.ShloMosaic.ValueIdx

/-- The image, channels last. -/
abbrev SImg : Shape := ⟨4, ![32, 512, 512, 3]⟩
/-- The image, channels second. -/
abbrev SImgT : Shape := ⟨4, ![32, 3, 512, 512]⟩
/-- The padded image, channels second. -/
abbrev SPadT : Shape := ⟨4, ![32, 3, 526, 526]⟩
/-- The padded image, channels last. -/
abbrev SPadL : Shape := ⟨4, ![32, 526, 526, 3]⟩

variable {α : Type}

/-- Padding the two image axes after moving the channels to the front is padding them in place, read with the
    channel coordinate moved. -/
theorem pad_transpose_apply (x : SImg.Idx → α) (z : (⟨0, ![]⟩ : Shape).Idx → α)
    (ht : SImg.Transposes [0, 3, 1, 2] SImgT)
    (hpT : SImgT.Pads ![0, 0, 7, 7] ![0, 0, 7, 7] ![0, 0, 0, 0] SPadT)
    (hp : SImg.Pads ![0, 7, 7, 0] ![0, 7, 7, 0] ![0, 0, 0, 0] SPadL)
    (hu : 0 < (⟨0, ![]⟩ : Shape).numel) (b : Fin 32) (c : Fin 3) (r s : Fin 526) :
    pad SPadT ![0, 0, 7, 7] ![0, 0, 7, 7] ![0, 0, 0, 0] (transpose SImgT [0, 3, 1, 2] x ht) z hpT hu (ix4 b c r s)
      = pad SPadL ![0, 7, 7, 0] ![0, 7, 7, 0] ![0, 0, 0, 0] x z hp hu (ix4 b r s c) := by
  have hr := r.isLt; have hs := s.isLt
  by_cases hin : 7 ≤ r.val ∧ r.val < 519 ∧ 7 ≤ s.val ∧ s.val < 519
  · -- inside the image on both padded axes
    obtain ⟨h1, h2, h3, h4⟩ := hin
    have er : r.val - 7 < 512 := by omega
    have es : s.val - 7 < 512 := by omega
    rw [pad_apply_of_inside _ _ _ _ z hpT hu (ix4 b c r s) (ix4 b c (⟨r.val - 7, er⟩ : Fin 512) (⟨s.val - 7, es⟩ : Fin 512)) (fun a =>
        match a with
        | ⟨0, _⟩ => by show b.val = 0 + b.val * (0 + 1); omega
        | ⟨1, _⟩ => by show c.val = 0 + c.val * (0 + 1); omega
        | ⟨2, _⟩ => by show r.val = 7 + (r.val - 7) * (0 + 1); omega
        | ⟨3, _⟩ => by show s.val = 7 + (s.val - 7) * (0 + 1); omega),
      pad_apply_of_inside _ _ _ x z hp hu (ix4 b r s c) (ix4 b (⟨r.val - 7, er⟩ : Fin 512) (⟨s.val - 7, es⟩ : Fin 512) c) (fun a =>
        match a with
        | ⟨0, _⟩ => by show b.val = 0 + b.val * (0 + 1); omega
        | ⟨1, _⟩ => by show r.val = 7 + (r.val - 7) * (0 + 1); omega
        | ⟨2, _⟩ => by show s.val = 7 + (s.val - 7) * (0 + 1); omega
        | ⟨3, _⟩ => by show c.val = 0 + c.val * (0 + 1); omega)]
    exact transpose_apply [0, 3, 1, 2] x ht (ix4 b c (⟨r.val - 7, er⟩ : Fin 512) (⟨s.val - 7, es⟩ : Fin 512))
      (ix4 b (⟨r.val - 7, er⟩ : Fin 512) (⟨s.val - 7, es⟩ : Fin 512) c) (fun a =>
        match a with
        | ⟨0, _⟩ => rfl
        | ⟨1, _⟩ => rfl
        | ⟨2, _⟩ => rfl
        | ⟨3, _⟩ => rfl)
  · -- in the padding on one of the two axes: both read the padding value
    by_cases hrin : 7 ≤ r.val ∧ r.val < 519
    · have hsout : ¬(7 ≤ s.val ∧ s.val < 519) := fun h => hin ⟨hrin.1, hrin.2, h.1, h.2⟩
      rw [pad_apply_of_not_inside _ _ _ _ z hpT hu (ix4 b c r s) ⟨3, by decide⟩ (by
          show ¬(7 ≤ s.val ∧ (s.val - 7) % (0 + 1) = 0 ∧ (s.val - 7) / (0 + 1) < 512); omega),
        pad_apply_of_not_inside _ _ _ x z hp hu (ix4 b r s c) ⟨2, by decide⟩ (by
          show ¬(7 ≤ s.val ∧ (s.val - 7) % (0 + 1) = 0 ∧ (s.val - 7) / (0 + 1) < 512); omega)]
    · rw [pad_apply_of_not_inside _ _ _ _ z hpT hu (ix4 b c r s) ⟨2, by decide⟩ (by
          show ¬(7 ≤ r.val ∧ (r.val - 7) % (0 + 1) = 0 ∧ (r.val - 7) / (0 + 1) < 512); omega),
        pad_apply_of_not_inside _ _ _ x z hp hu (ix4 b r s c) ⟨1, by decide⟩ (by
          show ¬(7 ≤ r.val ∧ (r.val - 7) % (0 + 1) = 0 ∧ (r.val - 7) / (0 + 1) < 512); omega)]

end Cert.MinPool

end
-- ==== Proof.KernelArray.lean ====
/-
  The kernel's run, read: what its result array holds.

  Grid point t = (b, c) fetches image b, channel c of the padded channels-second image and writes back the
  [512, 512] plane (b, c) of the pooled array, whose entry (r, q) is the chain over the column offsets of the chains
  over the row offsets of the padded image's entries (b, c, r + dh, q + dw). The 96 planes tile the [32, 3, 512, 512]
  array, so after the run it is that function of the padded image at every index; the padded image itself is what the
  host lines before the region left (the channels moved to the front, then the zero padding), and the line after the
  region moves the channels back.
-/
import proofs.«136789_j9371618640650_1_alg».proof.Proof.Gen.KernelIdeal.Frame
import Idealize.ShloMosaic.Lib.Pipeline.Value
import Idealize.ShloMosaic.Lib.ValueIdx
import Idealize.ShloMosaic.Lib.StableHlo.Run
import proofs.«136789_j9371618640650_1_alg».proof.Proof.Body
import proofs.«136789_j9371618640650_1_alg».proof.Proof.RefWindow
import proofs.«136789_j9371618640650_1_alg».proof.Proof.PadLayout

set_option maxRecDepth 16384

noncomputable section

namespace Cert.KernelIdeal.Pooled

open Cert.KernelIdeal Cert.KernelIdeal.Gen Idealize.ShloMosaic Idealize.ShloMosaic.TcCoe Idealize.SL.Sem
open Idealize.ShloMosaic.ValueIdx Cert.MinFold
open Idealize.ShloMosaic.Pipeline (Dat)

variable (m : (ℓ : Loc nD τ sig) → Buf (Elt Ideal) ℓ) (ρ : Dev nD → PrngReg)

/-- The pooled value at image b, channel c, position (r, q), of a padded channels-second image `Q`. -/
def poolAt (Q : S32x3x526x526.Idx → EReal) (b : Fin 32) (c : Fin 3) (r q : Fin 512) : EReal :=
  chain15 fun dw => chain15 fun dh =>
    Q (ix4 b c (⟨r.val + dh.val, by have := r.isLt; have := dh.isLt; omega⟩ : Fin 526)
      (⟨q.val + dw.val, by have := q.isLt; have := dw.isLt; omega⟩ : Fin 526))

/-- The pooled array, channels second. -/
def poolT (Q : S32x3x526x526.Idx → EReal) : S32x3x512x512.Idx → EReal :=
  fun i => poolAt Q (i 0) (i 1) (i 2) (i 3)

/-- The body's result on a block that is plane (b, c) of `Q` is plane (b, c) of the pooled array. -/
theorem block_eq (x0 : Vec Ideal S1x1x526x526 .f32) (Q : S32x3x526x526.Idx → EReal) (b : Fin 32) (c : Fin 3)
    (hx : ∀ r s : Fin 526, x0 (ix4 (0 : Fin 1) (0 : Fin 1) r s) = Q (ix4 b c r s)) (j : S1x1x512x512.Idx) :
    out0_1 x0 j = poolAt Q b c (j 2) (j 3) := by
  obtain ⟨u0, u1, r, q, rfl⟩ : ∃ (u0 u1 : Fin 1) (r q : Fin 512), j = ix4 u0 u1 r q := ⟨j 0, j 1, j 2, j 3, eq_ix4 j⟩
  obtain rfl : u0 = 0 := Subsingleton.elim _ _
  obtain rfl : u1 = 0 := Subsingleton.elim _ _
  rw [Body.out_apply]
  unfold poolAt
  simp only [hx]

/-- The printed index maps, decided over the 96 grid points: both windows sit at block (b, c, 0, 0). -/
theorem idx_facts : ∀ t : Fin cfg0.N,
    win0_0.index t (0 : Fin 4) = win0_1.index t (0 : Fin 4) ∧ win0_0.index t (1 : Fin 4) = win0_1.index t (1 : Fin 4)
    ∧ win0_0.index t (2 : Fin 4) = 0 ∧ win0_0.index t (3 : Fin 4) = 0
    ∧ win0_1.index t (2 : Fin 4) = 0 ∧ win0_1.index t (3 : Fin 4) = 0
    ∧ win0_1.index t (0 : Fin 4) < 32 ∧ win0_1.index t (1 : Fin 4) < 3 :=
  (by decide +kernel : ∀ t : Fin grid0.N, _)

/-- Every plane (b, c) is some point's block. -/
theorem idx_onto : ∀ (q0 : Fin 32) (q1 : Fin 3), ∃ t : Fin cfg0.N, win0_1.index t = ![q0.val, q1.val, 0, 0] :=
  (by decide +kernel : ∀ (q0 : Fin 32) (q1 : Fin 3), ∃ t : Fin grid0.N, win0_1.index t = ![q0.val, q1.val, 0, 0])

/-- WHAT POINT `t` WRITES BACK is block `t` of the pooled array of the padded image as the region finds it. -/
theorem flushed_eq (c : Dev nD) (t : Fin cfg0.N) :
    (dats m 0 c).flushed 1 t = ((cfg0.win 1).blk t).view.read (Elt Ideal) (poolT (V m c main_v1)) := by
  show (cfg0.win 1).cut (grid0.coords t) ((dats m 0 c).after 1 t) = _
  rw [after0_1]
  obtain ⟨e0, e1, e2, e3, e4, e5, e6, e7⟩ := idx_facts t
  funext j
  show out0_1 (iblk m c 0 t) j = poolT (V m c main_v1) (((cfg0.win 1).blk t).view.emb j)
  have hj0 : (j 0).val < 1 := (j 0).isLt
  have hj1 : (j 1).val < 1 := (j 1).isLt
  have hj2 : (j 2).val < 512 := (j 2).isLt
  have hj3 : (j 3).val < 512 := (j 3).isLt
  refine (block_eq (iblk m c 0 t) (V m c main_v1) ⟨win0_1.index t (0 : Fin 4), e6⟩ ⟨win0_1.index t (1 : Fin 4), e7⟩ ?_ j).trans ?_
  · intro r s
    show V m c main_v1 (((cfg0.win 0).blk t).view.emb (ix4 (0 : Fin 1) (0 : Fin 1) r s)) = _
    refine congrArg _ (funext fun a => Fin.ext ?_)
    match a with
    | ⟨0, _⟩ => show win0_0.index t (0 : Fin 4) * 1 + 1 * 0 = win0_1.index t (0 : Fin 4); omega
    | ⟨1, _⟩ => show win0_0.index t (1 : Fin 4) * 1 + 1 * 0 = win0_1.index t (1 : Fin 4); omega
    | ⟨2, _⟩ => show win0_0.index t (2 : Fin 4) * 526 + 1 * r.val = r.val; omega
    | ⟨3, _⟩ => show win0_0.index t (3 : Fin 4) * 526 + 1 * s.val = s.val; omega
  · show poolAt _ _ _ _ _ = poolAt _ _ _ _ _
    congr 1
    · exact Fin.ext (by show win0_1.index t (0 : Fin 4) = win0_1.index t (0 : Fin 4) * 1 + 1 * (j 0).val; omega)
    · exact Fin.ext (by show win0_1.index t (1 : Fin 4) = win0_1.index t (1 : Fin 4) * 1 + 1 * (j 1).val; omega)
    · exact Fin.ext (by show (j 2).val = win0_1.index t (2 : Fin 4) * 512 + 1 * (j 2).val; omega)
    · exact Fin.ext (by show (j 3).val = win0_1.index t (3 : Fin 4) * 512 + 1 * (j 3).val; omega)

/-- An index of the array is in point `t`'s block iff each coordinate is in the block's range on its axis. -/
theorem mem_blk (t : Fin cfg0.N) (i : S32x3x512x512.Idx) :
    i ∈ ((cfg0.win 1).blk t).view.set ↔ ∀ a : Fin 4, win0_1.index t a * S1x1x512x512.size a ≤ (i a).val
      ∧ (i a).val < win0_1.index t a * S1x1x512x512.size a + S1x1x512x512.size a := by
  show i ∈ ((View.whole main_v2).slice (win0_1.rect t)).set ↔ _
  rw [View.set_slice_whole, Rect.mem_set_unit]
  exact Iff.rfl

/-- The 96 planes cover the array. -/
theorem cover (i : S32x3x512x512.Idx) :
    ∃ t : Fin cfg0.N, (cfg0.win 1).flush t = true ∧ i ∈ ((cfg0.win 1).blk t).view.set := by
  have hi0 : (i 0).val < 32 := (i 0).isLt
  have hi1 : (i 1).val < 3 := (i 1).isLt
  have hi2 : (i 2).val < 512 := (i 2).isLt
  have hi3 : (i 3).val < 512 := (i 3).isLt
  obtain ⟨t, ht⟩ := idx_onto ⟨(i 0).val, hi0⟩ ⟨(i 1).val, hi1⟩
  have q0 : win0_1.index t (0 : Fin 4) = (i 0).val := congrFun ht 0
  have q1 : win0_1.index t (1 : Fin 4) = (i 1).val := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 1 ≤ (i 1).val ∧ (i 1).val < win0_1.index t (1 : Fin 4) * 1 + 1; omega
  | ⟨2, _⟩ => show win0_1.index t (2 : Fin 4) * 512 ≤ (i 2).val ∧ (i 2).val < win0_1.index t (2 : Fin 4) * 512 + 512; omega
  | ⟨3, _⟩ => show win0_1.index t (3 : Fin 4) * 512 ≤ (i 3).val ∧ (i 3).val < win0_1.index t (3 : Fin 4) * 512 + 512; omega

/-- THE ARRAY after the region: the pooled array of the padded image. -/
theorem final (c : Dev nD) : (dats m 0 c).arrAt 1 cfg0.N = poolT (V m c main_v1) :=
  (dats m 0 c).arrAt_eq_of_cover 1 (poolT (V m c main_v1)) (fun t _ => flushed_eq m c t) cover

/-- The padded image the region finds: the host lines before it, read back. -/
theorem V_main_v1 (c : Dev nD) :
    (V m c main_v1 : S32x3x526x526.Idx → EReal)
      = pad S32x3x526x526 ![0, 0, 7, 7] ![0, 0, 7, 7] ![0, 0, 0, 0]
          (transpose S32x3x512x512 [0, 3, 1, 2] (m ((c : Thread nD τ).loc main_arg0)) transposes_S32x512x512x3_S32x3x512x512_0_3_1_2)
          (id (constant (F := Ideal) S_ .f32 0x00000000#32)) pads_S32x3x512x512_S32x3x526x526_000_000_770_770 h_S_ := by
  dsimp only [V, V0]
  simp only [hostOps0, hostOps0_1, List.flatten_cons, List.flatten_nil, List.append_nil, List.cons_append, List.nil_append]
  after_results
  rfl

/-- The line after the region moves the channels of the pooled array back. -/
theorem tail_eq (c : Dev nD) :
    Pipeline.afterTail₀ cfgs (dats m) 0 (V0 m) [hostOps1] c main_v3
      = transpose S32x512x512x3 [0, 2, 3, 1] (poolT (V m c main_v1)) transposes_S32x3x512x512_S32x512x512x3_0_2_3_1 := by
  unfold Pipeline.afterTail₀
  show StableHlo.after hostOps1 _ (Proc.devRef .tc main_v3) = _
  after_results
  exact congrArg (fun a => transpose S32x512x512x3 [0, 2, 3, 1] a transposes_S32x3x512x512_S32x512x512x3_0_2_3_1)
    ((Pipeline.withArrays_arr spec0 launch0.win.arr_inj c _ _ 1).trans (final m c))

/-- THE RUN, READ: every weakly fair execution ends with the result buffer at the pooled array of the padded image, the
    channels moved back, and the argument unchanged. -/
theorem run : θ_run defs (onTc (τ := τ) (main (F := Ideal))) ⟨m, fun _ => 0, ρ⟩ fun r => ∀ c : Dev nD,
      r.2.mem ((c.tc : Thread nD τ).loc main_v3)
        = transpose S32x512x512x3 [0, 2, 3, 1] (poolT (V m c main_v1)) transposes_S32x3x512x512_S32x512x512x3_0_2_3_1
      ∧ r.2.mem ((c.tc : Thread nD τ).loc main_arg0) = m ((c.tc : Thread nD τ).loc main_arg0) :=
  (θ_run defs _ _).mono (fun r h c =>
      ⟨((h c).2 main_v3 (Pipeline.mem_restRefs_of main_v3 (by decide) (by decide))).trans (tail_eq m c),
        ((h c).2 main_arg0 (Pipeline.mem_restRefs_of main_arg0 (by decide) (by decide))).trans (W_main_arg0 m (dats m) c)⟩)
    (run_main m ρ)

/-- The result, index by index, is the 15 × 15 window minimum of the image padded in place: at (b, h, w, ch) the
    channels-second pooled array's (b, ch, h, w), whose taps (b, ch, h + dh, w + dw) of the channels-second padding
    are the in-place padding's (b, h + dh, w + dw, ch). -/
theorem result_eq (c : Dev nD)
    (hp : Cert.MinPool.SImg.Pads ![0, 7, 7, 0] ![0, 7, 7, 0] ![0, 0, 0, 0] Cert.MinPool.SPadL)
    (hu : 0 < (⟨0, ![]⟩ : Shape).numel) :
    transpose S32x512x512x3 [0, 2, 3, 1] (poolT (V m c main_v1)) transposes_S32x3x512x512_S32x512x512x3_0_2_3_1
      = Cert.MinPool.windowMin (pad Cert.MinPool.SPadL ![0, 7, 7, 0] ![0, 7, 7, 0] ![0, 0, 0, 0]
          (m ((c : Thread nD τ).loc main_arg0)) (id (constant (F := Ideal) S_ .f32 0x00000000#32)) hp hu) := by
  funext i
  obtain ⟨b, h, w, ch, rfl⟩ : ∃ (b : Fin 32) (h w : Fin 512) (ch : Fin 3), i = ix4 b h w ch := ⟨i 0, i 1, i 2, i 3, eq_ix4 i⟩
  rw [Cert.MinPool.windowMin_eq_chains]
  refine (transpose_apply [0, 2, 3, 1] _ transposes_S32x3x512x512_S32x512x512x3_0_2_3_1 (ix4 b h w ch) (ix4 b ch h w) (fun a =>
    match a with
    | ⟨0, _⟩ => rfl
    | ⟨1, _⟩ => rfl
    | ⟨2, _⟩ => rfl
    | ⟨3, _⟩ => rfl)).trans ?_
  show poolAt (V m c main_v1) b ch h w = _
  unfold poolAt
  rw [V_main_v1]
  refine congrArg chain15 (funext fun dw => congrArg chain15 (funext fun dh => ?_))
  exact Cert.MinPool.pad_transpose_apply _ _ _ _ hp hu b ch _ _

end Cert.KernelIdeal.Pooled

end
-- ==== Proof.lean ====
/-
  A 15 × 15 sliding-window minimum over a zero-padded [32, 512, 512, 3] image, two ways.

  The kernel moves the channels in front of the image axes, pads the two image axes by 7 on each side with zeros,
  and per (image, channel) plane takes the minimum over fifteen row offsets and then over fifteen column offsets;
  it then moves the channels back. The reference pads the image in place and takes one window minimum over
  [1, 15, 15, 1] windows, folded from +inf. On the extended reals `min` is exact, associative, commutative and
  idempotent, and +inf is its identity, so both results are, at (b, h, w, c), the infimum of the padded image's 225
  entries (b, h + dh, w + dw, c): a minimum over pairs of offsets is the minimum over one offset of the minima over
  the other, and the order of a fold of minimums is immaterial. No entry needs to be finite for any of this.

  The modules: MinFold (the order facts of a fold and of a chain of minimums), RefWindow (the host's window
  reduction read at an index), PadLayout (the two paddings are one, the channel coordinate moved), Body (the
  kernel body's stored block read at an index), KernelArray (the blocks tile the array; the host lines around the
  region; the result index by index).
-/
import proofs.«136789_j9371618640650_1_alg».proof.Defs
import proofs.«136789_j9371618640650_1_alg».proof.Proof.Gen.Kernel
import proofs.«136789_j9371618640650_1_alg».proof.Proof.Gen.Kernel.Skeleton
import proofs.«136789_j9371618640650_1_alg».proof.Proof.Gen.Kernel.Launch
import proofs.«136789_j9371618640650_1_alg».proof.Proof.Gen.Kernel.Points
import proofs.«136789_j9371618640650_1_alg».proof.Proof.Gen.Kernel.Frame
import proofs.«136789_j9371618640650_1_alg».proof.Proof.Gen.KernelIdeal
import proofs.«136789_j9371618640650_1_alg».proof.Proof.Gen.KernelIdeal.Skeleton
import proofs.«136789_j9371618640650_1_alg».proof.Proof.Gen.KernelIdeal.Launch
import proofs.«136789_j9371618640650_1_alg».proof.Proof.Gen.KernelIdeal.Points
import proofs.«136789_j9371618640650_1_alg».proof.Proof.Gen.KernelIdeal.Frame
import proofs.«136789_j9371618640650_1_alg».proof.Proof.Gen.ReferenceIdeal
import proofs.«136789_j9371618640650_1_alg».proof.Proof.Gen.ReferenceIdeal.Run
import proofs.«136789_j9371618640650_1_alg».proof.Proof.Gen.Pre_finite_inputs
import proofs.«136789_j9371618640650_1_alg».proof.Proof.KernelArray
import proofs.«136789_j9371618640650_1_alg».proof.Proof.RefWindow
import Idealize.ShloMosaic.Adequacy
import Idealize.ShloMosaic.Init

noncomputable section

namespace Cert.Proof

open Idealize.ShloMosaic Idealize.SL.Sem

/-- The word of +inf is the top of the extended reals. -/
theorem top_word : Ideal.ofBits .f32 0x7F800000#32 = ⊤ := by simp [Ideal.ofBits, Ideal.ieee]

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the window minimum of the image padded in place: the kernel by its run read back and the
    index-by-index bridge, the reference by its run and the host's window reduction from +inf read as an infimum. -/
theorem algebraic : Cert.algebraic_KernelIdeal_ReferenceIdeal := by
  intro m ρ m' ρ' _ hagree
  refine ⟨fun c => Cert.MinPool.windowMin (pad Cert.MinPool.SPadL ![0, 7, 7, 0] ![0, 7, 7, 0] ![0, 0, 0, 0]
      (m ((c.tc : Thread Cert.KernelIdeal.nD Cert.KernelIdeal.τ).loc Cert.KernelIdeal.main_arg0))
      (id (constant (F := Ideal) Cert.ReferenceIdeal.S_ .f32 0x00000000#32))
      Cert.ReferenceIdeal.Facts₀.pads_S32x512x512x3_S32x526x526x3_000_770_770_000 Cert.ReferenceIdeal.Facts₀.h_S_), ?_, ?_⟩
  · exact (θ_run Cert.KernelIdeal.defs _ _).mono
      (fun r h c => ⟨(h c).1.trans (Cert.KernelIdeal.Pooled.result_eq m c _ _), (h c).2⟩)
      (Cert.KernelIdeal.Pooled.run m ρ)
  · refine (θ_run Cert.ReferenceIdeal.defs _ _).mono (fun r h c => ⟨(h c).1.trans ?_, (h c).2⟩)
      (Cert.ReferenceIdeal.Value.run (F := Ideal) m' ρ')
    rw [hagree c]
    exact Cert.MinPool.reduceWindow_min_eq _ _ _ _ top_word

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
